-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x2048 .f32
  ∧ IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S1x2048 : Shape := ⟨2, ![1, 2048]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x1, .f32⟩
  | .hbm, ⟨5, _⟩ => ⟨S8192x2048, .bf16⟩
  | .hbm, ⟨6, _⟩ => ⟨S8192x1, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1, .f32⟩
  | .local _ .vmem, ⟨5, _⟩ => ⟨S256x1, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x1, .f32⟩
  | .local _ .vmem, ⟨11, _⟩ => ⟨S512x1, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x1, .f32⟩
  | .local _ .vmem, ⟨17, _⟩ => ⟨S512x1, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S256x1_S256x1_0_0 : ∀ a, (![0, 0] : Fin 2 → Nat) a + S256x1.size a ≤ S256x1.size a
  h_S256x1 : 0 < S256x1.numel
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S512x1_S512x1_0_0 : ∀ a, (![0, 0] : Fin 2 → Nat) a + S512x1.size a ≤ S512x1.size a
  h_S512x1 : 0 < S512x1.numel
  shapeCasts_S2048x1_S1x2048 : S2048x1.ShapeCasts S1x2048
  shapeCasts_S2048_S1x2048 : S2048.ShapeCasts S1x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S512x1_S512x1 : S512x1.ShapeCasts S512x1
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .bf16 = 32 ∨ (Rect.block (s := S8192x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .bf16 = 32 ∨ (Rect.block (s := S8192x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S8192x1.size a
  hwx2_3 : ∀ i : grid2.Coords, EltTy.bits .f32 = 32 ∨ (Rect.block (s := S8192x1) S512x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S8192x2048.size a
  hwx2_5 : ∀ i : grid2.Coords, EltTy.bits .f32 = 32 ∨ (Rect.block (s := S8192x2048) S512x2048.size (cc2_transform_5 i) (hinb2_5 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S512x2048.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S1x2048, .f32⟩
  | .hbm, ⟨75, _⟩ => ⟨S8192x2048, .f32⟩
  | .hbm, ⟨76, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_cst_12 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048 : S_.BroadcastsInDim S2048 (![] : Fin 0 → Fin S2048.rank)
  bcast_S2048_S1x2048_1 : S2048.BroadcastsInDim S1x2048 (![1] : Fin 1 → Fin S1x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The two programs as functions of ROWS of extended reals.

  A weight row `w` (2048 entries) gives its sign pattern, the signs of the entries minus the row's mean, and its
  scale, the mean of the absolute values. An activation row `x` is normalised (entries minus the mean, over the
  square root of the variance plus a small constant), its peak is the largest absolute value of the normalised row
  (at least the small constant), and it is quantised: the normalised entries times seven over the peak, clipped to
  a fixed interval. The output entry of an activation row and a weight row is the dot product of the quantised row
  with the sign pattern, times scale times peak over seven, plus a bias entry.

  The kernel and the reference differ in four places, and each has its own form here:
  the kernel multiplies by the reciprocal square root where the reference divides by the square root (`normK`,
  `normR`); the reference writes the sign and the clip as `v + (f v - v)` (`signR`, `quantR`); and the kernel
  multiplies by the rational 1/7 where the reference divides by seven (`outK`, `outR`).
  The float constants stay the patterns both programs spell; what each denotes is proved where it is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A row of 2048 extended reals. -/
abbrev Row := Fin 2048 → EReal

/-! ## The constants, as the patterns the programs spell -/

/-- 2048.0 -/
def c2048 : EReal := Ideal.ofBits .f32 0x45000000#32
/-- the small constant, the float nearest 1e-5 -/
def cEps : EReal := Ideal.ofBits .f32 0x3727C5AC#32
/-- 7.0 -/
def c7 : EReal := Ideal.ofBits .f32 0x40E00000#32
/-- the clip's lower end, the float nearest -6.99999 -/
def cLo : EReal := Ideal.ofBits .f32 0xC0DFFFEB#32
/-- the clip's upper end, the float nearest 6.99999 -/
def cHi : EReal := Ideal.ofBits .f32 0x40DFFFEB#32
/-- the pattern of minus infinity, from which a row's maximum is folded -/
def cNegInf : EReal := Ideal.ofBits .f32 0xFF800000#32
/-- the rational 1/7 the kernel's folded reciprocal is read as -/
def inv7 : EReal := ((1 / 7 : ℝ) : EReal)

/-! ## Rows -/

/-- The mean of a row: its sum over 2048. -/
def mean (f : Row) : EReal := Ideal.div (∑ k, f k) c2048
/-- The row minus its mean. -/
def centred (f : Row) : Row := fun k => f k - mean f
/-- The absolute values of a row (`max a (-a)`, the extended reals' absolute value). -/
def absRow (f : Row) : Row := fun k => max (f k) (-(f k))
/-- The mean of the absolute values: a weight row's scale. -/
def meanAbs (f : Row) : EReal := Ideal.div (∑ k, absRow f k) c2048
/-- The mean of the squares of the centred row. -/
def variance (f : Row) : EReal := Ideal.div (∑ k, centred f k * centred f k) c2048
/-- The normalised row, as the kernel computes it: times the reciprocal square root. -/
def normK (f : Row) : Row := fun k => centred f k * Ideal.rsqrt (variance f + cEps)
/-- The normalised row, as the reference computes it: over the square root. -/
def normR (f : Row) : Row := fun k => Ideal.div (centred f k) (Ideal.sqrt (variance f + cEps))
/-- The peak of a row: its largest absolute value, folded from minus infinity, and at least the small constant. -/
def peak (g : Row) : EReal := max ((Finset.univ : Finset (Fin 2048)).fold max cNegInf (absRow g)) cEps
/-- A row times seven over its peak. -/
def scaled (g : Row) : Row := fun k => g k * Ideal.div c7 (peak g)
/-- The clip to the fixed interval. -/
def clip (x : EReal) : EReal := min cHi (max cLo x)
/-- The quantised activation row, as the kernel computes it. -/
def quantK (f : Row) : Row := fun k => clip (scaled (normK f) k)
/-- The quantised activation row, as the reference computes it: `v + (clip v - v)`. -/
def quantR (f : Row) : Row := fun k => scaled (normR f) k + (clip (scaled (normR f) k) - scaled (normR f) k)
/-- The sign pattern of a weight row, as the kernel computes it. -/
def signK (f : Row) : Row := fun k => Ideal.sign (centred f k)
/-- The sign pattern of a weight row, as the reference computes it: `v + (sign v - v)`. -/
def signR (f : Row) : Row := fun k => centred f k + (Ideal.sign (centred f k) - centred f k)

/-- One output entry, as the kernel computes it, from an activation row, a weight row and a bias entry. -/
def outK (x w : Row) (b : EReal) : EReal :=
  (∑ k, quantK x k * signK w k) * ((meanAbs w * peak (normK x)) * inv7) + b
/-- One output entry, as the reference computes it. -/
def outR (x w : Row) (b : EReal) : EReal :=
  (∑ k, quantR x k * signR w k) * Ideal.div (meanAbs w * peak (normR x)) c7 + b

/-! ## Arrays -/

/-- Row `r` of an array of 2048 columns. -/
def rowOf {n : Nat} (A : (⟨2, ![n, 2048]⟩ : Shape).Idx → EReal) (r : Fin n) : Row := fun k => A (ix2 r k)

/-- The sign patterns of all rows of a weight array. -/
def signArr {n : Nat} (A : (⟨2, ![n, 2048]⟩ : Shape).Idx → EReal) : (⟨2, ![n, 2048]⟩ : Shape).Idx → EReal :=
  fun j => signK (rowOf A (j 0)) (j 1)
/-- The scales of all rows of a weight array, as a column. -/
def scaleCol {n : Nat} (A : (⟨2, ![n, 2048]⟩ : Shape).Idx → EReal) : (⟨2, ![n, 1]⟩ : Shape).Idx → EReal :=
  fun j => meanAbs (rowOf A (j 0))
/-- The quantised rows of an activation array (kernel form). -/
def quantArr {n : Nat} (A : (⟨2, ![n, 2048]⟩ : Shape).Idx → EReal) : (⟨2, ![n, 2048]⟩ : Shape).Idx → EReal :=
  fun j => quantK (rowOf A (j 0)) (j 1)
/-- The peaks of the normalised rows of an activation array (kernel form), as a column. -/
def peakCol {n : Nat} (A : (⟨2, ![n, 2048]⟩ : Shape).Idx → EReal) : (⟨2, ![n, 1]⟩ : Shape).Idx → EReal :=
  fun j => peak (normK (rowOf A (j 0)))

/-- The last kernel: the product of a quantised array with a sign array along their columns, each entry times
    scale times peak times 1/7, plus the bias. The scale and the bias are row vectors, the peak a column. -/
def gemm (XQ : (⟨2, ![8192, 2048]⟩ : Shape).Idx → EReal) (WB : (⟨2, ![2048, 2048]⟩ : Shape).Idx → EReal)
    (BETA : (⟨2, ![1, 2048]⟩ : Shape).Idx → EReal) (GAMA : (⟨2, ![8192, 1]⟩ : Shape).Idx → EReal)
    (BIAS : (⟨2, ![1, 2048]⟩ : Shape).Idx → EReal) : (⟨2, ![8192, 2048]⟩ : Shape).Idx → EReal :=
  fun j => (∑ k : Fin 2048, XQ (ix2 (j 0) k) * WB (ix2 (j 1) k))
    * ((BETA (ix2 0 (j 1)) * GAMA (ix2 (j 0) 0)) * inv7) + BIAS (ix2 0 (j 1))

/-- The whole reference, entry by entry. -/
def refOut (X : (⟨2, ![8192, 2048]⟩ : Shape).Idx → EReal) (Wt : (⟨2, ![2048, 2048]⟩ : Shape).Idx → EReal)
    (B : (⟨1, ![2048]⟩ : Shape).Idx → EReal) : (⟨2, ![8192, 2048]⟩ : Shape).Idx → EReal :=
  fun j => outR (rowOf X (j 0)) (rowOf Wt (j 1)) (B (ix1 (j 1)))

/-- The whole kernel program, entry by entry. -/
def kerOut (X : (⟨2, ![8192, 2048]⟩ : Shape).Idx → EReal) (Wt : (⟨2, ![2048, 2048]⟩ : Shape).Idx → EReal)
    (B : (⟨1, ![2048]⟩ : Shape).Idx → EReal) : (⟨2, ![8192, 2048]⟩ : Shape).Idx → EReal :=
  fun j => outK (rowOf X (j 0)) (rowOf Wt (j 1)) (B (ix1 (j 1)))

end Cert.Spec

end
-- ==== Proof.RefFrame.lean ====
/-
  The reference program's frame: its host operations run to the end without a fault and write none of the
  three argument arrays. It is the reference's run (every result at the operations' composed term of the
  arguments) with the statement about the result dropped.
-/
import proofs.«109959_j77799037599823_1_alg».proof.Defs
import proofs.«109959_j77799037599823_1_alg».proof.Proof.Gen.ReferenceIdeal
import proofs.«109959_j77799037599823_1_alg».proof.Proof.Gen.Pre_finite_inputs
import proofs.«109959_j77799037599823_1_alg».proof.Proof.Gen.ReferenceIdeal.Run
import proofs.«109959_j77799037599823_1_alg».proof.Proof.Gen.ReferenceIdeal.Read

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValue.lean ====
/-
  The reference program's result, read entry by entry at the extended reals: entry (r, o) is the reference's output
  entry of activation row r, weight row o and bias entry o.
-/
import proofs.«109959_j77799037599823_1_alg».proof.Proof.Gen.ReferenceIdeal.Read
import proofs.«109959_j77799037599823_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The mean of a weight row. -/
theorem v3_eq (x1 : (⟨S2048x2048, .f32⟩ : BufTy).Contents (Elt Ideal)) (i : S2048x1.Idx) :
    val_main_v3 (F := Ideal) x1 i = Cert.Spec.mean (Cert.Spec.rowOf x1 (i 0)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  have e : ∀ k : Fin 2048, idx_main_v0 (idx_main_v1 i) k = ix2 (i 0) k := fun k =>
    funext fun a => match a with | ⟨0, _⟩ => rfl | ⟨1, _⟩ => rfl
  simp only [e]
  rfl

/-- A weight row minus its mean. -/
theorem v5_eq (x1 : (⟨S2048x2048, .f32⟩ : BufTy).Contents (Elt Ideal)) (i : S2048x2048.Idx) :
    val_main_v5 (F := Ideal) x1 i = Cert.Spec.centred (Cert.Spec.rowOf x1 (i 0)) (i 1) := by
  obtain ⟨r, k, rfl⟩ : ∃ r k, i = ix2 r k := ⟨i 0, i 1, eq_ix2 i⟩
  rw [val_main_v5_apply, val_main_v4_apply, v3_eq]
  rfl

/-- The sign pattern of a weight row, in the form `v + (sign v - v)`. -/
theorem v8_eq (x1 : (⟨S2048x2048, .f32⟩ : BufTy).Contents (Elt Ideal)) (i : S2048x2048.Idx) :
    val_main_v8 (F := Ideal) x1 i = Cert.Spec.signR (Cert.Spec.rowOf x1 (i 0)) (i 1) := by
  rw [val_main_v8_apply, val_main_v7_apply, val_main_v6_apply, v5_eq]
  rfl

/-- The scale of a weight row: the mean of its absolute values. -/
theorem v12_eq (x1 : (⟨S2048x2048, .f32⟩ : BufTy).Contents (Elt Ideal)) (i : S2048.Idx) :
    val_main_v12 (F := Ideal) x1 i = Cert.Spec.meanAbs (Cert.Spec.rowOf x1 (i 0)) := by
  rw [val_main_v12_apply, val_main_v10_apply, val_main_v11_apply, val_main_cst_2_apply, val_main_cst_1_apply]
  simp only [Ideal.hostDivf_def, Ideal.ofBits_def, Ideal.ofBits_zero_f32, zero_add, val_main_v9_apply]
  have e : ∀ k : Fin 2048, idx_main_v10 i k = ix2 (i 0) k := fun k =>
    funext fun a => match a with | ⟨0, _⟩ => rfl | ⟨1, _⟩ => rfl
  simp only [e]
  rfl

/-- The scales, as one row. -/
theorem v13_eq (x1 : (⟨S2048x2048, .f32⟩ : BufTy).Contents (Elt Ideal)) (i : S1x2048.Idx) :
    val_main_v13 (F := Ideal) x1 i = Cert.Spec.meanAbs (Cert.Spec.rowOf x1 (i 1)) := by
  rw [val_main_v13_apply, v12_eq]
  rfl

/-- The mean of an activation row. -/
theorem v17_eq (x0 : (⟨S8192x2048, .f32⟩ : BufTy).Contents (Elt Ideal)) (i : S8192x1.Idx) :
    val_main_v17 (F := Ideal) x0 i = Cert.Spec.mean (Cert.Spec.rowOf x0 (i 0)) := by
  rw [val_main_v17_apply, val_main_v15_apply, val_main_v14_apply, val_main_v16_apply, val_main_cst_4_apply,
    val_main_cst_3_apply]
  simp only [Ideal.hostDivf_def, Ideal.ofBits_def, Ideal.ofBits_zero_f32, zero_add]
  have e : ∀ k : Fin 2048, idx_main_v14 (idx_main_v15 i) k = ix2 (i 0) k := fun k =>
    funext fun a => match a with | ⟨0, _⟩ => rfl | ⟨1, _⟩ => rfl
  simp only [e]
  rfl

/-- An activation row minus its mean. -/
theorem v19_eq (x0 : (⟨S8192x2048, .f32⟩ : BufTy).Contents (Elt Ideal)) (i : S8192x2048.Idx) :
    val_main_v19 (F := Ideal) x0 i = Cert.Spec.centred (Cert.Spec.rowOf x0 (i 0)) (i 1) := by
  obtain ⟨r, k, rfl⟩ : ∃ r k, i = ix2 r k := ⟨i 0, i 1, eq_ix2 i⟩
  rw [val_main_v19_apply, val_main_v18_apply, v17_eq]
  rfl

/-- An activation row minus its mean, the second time the program forms it. -/
theorem v26_eq (x0 : (⟨S8192x2048, .f32⟩ : BufTy).Contents (Elt Ideal)) (i : S8192x2048.Idx) :
    val_main_v26 (F := Ideal) x0 i = Cert.Spec.centred (Cert.Spec.rowOf x0 (i 0)) (i 1) := by
  obtain ⟨r, k, rfl⟩ : ∃ r k, i = ix2 r k := ⟨i 0, i 1, eq_ix2 i⟩
  rw [val_main_v26_apply, val_main_v25_apply, v17_eq]
  rfl

/-- The variance of an activation row: the mean of the squares of the centred row. -/
theorem v24_eq (x0 : (⟨S8192x2048, .f32⟩ : BufTy).Contents (Elt Ideal)) (i : S8192x1.Idx) :
    val_main_v24 (F := Ideal) x0 i = Cert.Spec.variance (Cert.Spec.rowOf x0 (i 0)) := by
  rw [val_main_v24_apply, val_main_v22_apply, val_main_v21_apply, val_main_v23_apply, val_main_cst_6_apply,
    val_main_cst_5_apply]
  simp only [Ideal.hostDivf_def, Ideal.ofBits_def, Ideal.ofBits_zero_f32, zero_add, val_main_v20_apply, v19_eq,
    Ideal.mulf_def]
  rfl

/-- The normalised activation row: the centred row over the square root of the variance plus the small constant. -/
theorem v31_eq (x0 : (⟨S8192x2048, .f32⟩ : BufTy).Contents (Elt Ideal)) (i : S8192x2048.Idx) :
    val_main_v31 (F := Ideal) x0 i = Cert.Spec.normR (Cert.Spec.rowOf x0 (i 0)) (i 1) := by
  rw [val_main_v31_apply, v26_eq, val_main_v30_apply, val_main_v29_apply, val_main_v28_apply, v24_eq,
    val_main_v27_apply, val_main_cst_7_apply]
  rfl

/-- Putting column `k` back into the reduced index `i` gives the index (i 0, k). -/
private theorem lift_d1 (h : S8192x2048.Reduces [1] S8192) (i : S8192.Idx) (k : Fin 2048) :
    h.lift i k = ix2 (⟨(i 0).val, (i 0).isLt⟩ : Fin 8192) k := by
  funext c; apply Fin.ext
  match c with
  | ⟨0, _⟩ => rfl
  | ⟨1, _⟩ => rfl

/-- The row maximum of the absolute values of the normalised row, folded from minus infinity. -/
theorem v33_eq (x0 : (⟨S8192x2048, .f32⟩ : BufTy).Contents (Elt Ideal)) (i : S8192.Idx) :
    val_main_v33 (F := Ideal) x0 i
      = (Finset.univ : Finset (Fin 2048)).fold max Cert.Spec.cNegInf
          (Cert.Spec.absRow (Cert.Spec.normR (Cert.Spec.rowOf x0 (i 0)))) := by
  unfold val_main_v33
  have h : S8192x2048.Reduces [1] S8192 := by decide
  rw [Host.reduce_eq_fold_single FloatOps.maximumf _ _ Gen.reducesTo_S8192x2048_S8192_d1 h Gen.h_S_ i]
  have hf : (fun k : Fin 2048 => val_main_v32 (F := Ideal) x0 (h.lift i k))
      = Cert.Spec.absRow (Cert.Spec.normR (Cert.Spec.rowOf x0 (i 0))) := by
    funext k
    rw [lift_d1 h i k, val_main_v32_apply, v31_eq]
    rfl
  exact congrArg (fun f : Fin 2048 → EReal => (Finset.univ : Finset (Fin 2048)).fold max Cert.Spec.cNegInf f) hf

/-- The peak of the normalised row: its largest absolute value, at least the small constant. -/
theorem v36_eq (x0 : (⟨S8192x2048, .f32⟩ : BufTy).Contents (Elt Ideal)) (i : S8192x1.Idx) :
    val_main_v36 (F := Ideal) x0 i = Cert.Spec.peak (Cert.Spec.normR (Cert.Spec.rowOf x0 (i 0))) := by
  rw [val_main_v36_apply, val_main_v34_apply, v33_eq, val_main_v35_apply, val_main_cst_9_apply]
  rfl

/-- The normalised row times seven over its peak. -/
theorem v40_eq (x0 : (⟨S8192x2048, .f32⟩ : BufTy).Contents (Elt Ideal)) (i : S8192x2048.Idx) :
    val_main_v40 (F := Ideal) x0 i = Cert.Spec.scaled (Cert.Spec.normR (Cert.Spec.rowOf x0 (i 0))) (i 1) := by
  rw [val_main_v40_apply, v31_eq, val_main_v39_apply, val_main_v38_apply, v36_eq, val_main_v37_apply,
    val_main_cst_10_apply]
  rfl

/-- The clip of the scaled row: the maximum with the lower end, then the minimum with the upper end. -/
theorem v41_eq (x0 : (⟨S8192x2048, .f32⟩ : BufTy).Contents (Elt Ideal)) (i : S8192x2048.Idx) :
    val_main_v41 (F := Ideal) x0 i
      = Cert.Spec.clip (Cert.Spec.scaled (Cert.Spec.normR (Cert.Spec.rowOf x0 (i 0))) (i 1)) := by
  rw [val_main_v41_apply, val_main_call0_v4_apply, val_main_call0_v3_apply, val_main_cst_12_apply,
    val_main_call0_v2_apply, val_main_call0_v1_apply, val_main_call0_v0_apply, val_main_cst_11_apply, v40_eq]
  rfl

/-- The quantised activation row, in the form `v + (clip v - v)`. -/
theorem v43_eq (x0 : (⟨S8192x2048, .f32⟩ : BufTy).Contents (Elt Ideal)) (i : S8192x2048.Idx) :
    val_main_v43 (F := Ideal) x0 i = Cert.Spec.quantR (Cert.Spec.rowOf x0 (i 0)) (i 1) := by
  rw [val_main_v43_apply, val_main_v42_apply, v41_eq, v40_eq]
  rfl

/-- The dot product of a quantised activation row with the sign pattern of a weight row. -/
theorem v44_eq (x0 : (⟨S8192x2048, .f32⟩ : BufTy).Contents (Elt Ideal))
    (x1 : (⟨S2048x2048, .f32⟩ : BufTy).Contents (Elt Ideal)) (i : S8192x2048.Idx) :
    val_main_v44 (F := Ideal) x0 x1 i
      = ∑ k : Fin 2048, Cert.Spec.quantR (Cert.Spec.rowOf x0 (i 0)) k * Cert.Spec.signR (Cert.Spec.rowOf x1 (i 1)) k := by
  rw [val_main_v44_apply]
  simp only [v43_eq, v8_eq]
  rfl

/-- The factor of an output entry: scale times peak, over seven. -/
theorem v49_eq (x0 : (⟨S8192x2048, .f32⟩ : BufTy).Contents (Elt Ideal))
    (x1 : (⟨S2048x2048, .f32⟩ : BufTy).Contents (Elt Ideal)) (i : S8192x2048.Idx) :
    val_main_v49 (F := Ideal) x0 x1 i
      = Ideal.div (Cert.Spec.meanAbs (Cert.Spec.rowOf x1 (i 1)) * Cert.Spec.peak (Cert.Spec.normR (Cert.Spec.rowOf x0 (i 0))))
          Cert.Spec.c7 := by
  rw [val_main_v49_apply, val_main_v47_apply, val_main_v45_apply, v13_eq, val_main_v46_apply, v36_eq,
    val_main_v48_apply, val_main_cst_13_apply]
  rfl

/-- The reference's last stage is the reference form of the output, entry by entry. -/
theorem value (x0 : (⟨S8192x2048, .f32⟩ : BufTy).Contents (Elt Ideal)) (x1 : (⟨S2048x2048, .f32⟩ : BufTy).Contents (Elt Ideal))
    (x2 : (⟨S2048, .f32⟩ : BufTy).Contents (Elt Ideal)) :
    val_main_v53 (F := Ideal) x0 x1 x2 = Cert.Spec.refOut x0 x1 x2 := by
  funext j
  obtain ⟨r, o, rfl⟩ : ∃ r o, j = ix2 r o := ⟨j 0, j 1, eq_ix2 j⟩
  rw [val_main_v53_apply, val_main_v50_apply, v44_eq, v49_eq, val_main_v52_apply, val_main_v51_apply]
  have e : idx_main_v51 (idx_main_v52 (ix2 r o)) = ix1 o :=
    funext fun a => match a with | ⟨0, _⟩ => rfl
  rw [e]
  rfl

end Cert.ReferenceIdeal.RefValue

end
-- ==== Proof.Region0.lean ====
/-
  The first kernel region, at the extended reals: it reads the weight array in blocks of 256 whole rows and writes,
  for each row, the row's sign pattern (the signs of the entries minus the row's mean) and, in a one-column array, the
  row's scale (the mean of its absolute values). Every output row depends on the same input row only, so the eight
  blocks together give the two whole arrays as functions of the weight array as the region finds it.
-/
import proofs.«109959_j77799037599823_1_alg».proof.Proof.Gen.KernelIdeal.Frame
import proofs.«109959_j77799037599823_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat Cfg Window)

namespace Cert.KernelIdeal.Region0

open Cert.KernelIdeal Cert.KernelIdeal.Gen

variable (V : (c : Dev nD) → (b : Ref sig .tc) → Buf (Elt Ideal) ((c : Thread nD τ).loc b))

/-! ## A vector as a column, and a column repeated along the rows, read at an index -/

/-- A vector of `a` entries cast to a column `[a, 1]` reads, at `(i, u)`, the vector at `i`. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's two results at an index -/

/-- The sum along a row of a block of 256 rows, read at row `p`. -/
private theorem rowSum_apply (x : FVec Ideal S256x2048 .f32) (h : S256x2048.Reduces [1] S256)
    (hφ : FKind.Formats .f32) (hacc : (0x00000000#32 : BitVec 32) = FKind.add.neutral .f32 hφ) (p : Fin 256) :
    multiReduction .add [1] S256 x 0x00000000#32 h hφ hacc (ix1 p) = ∑ k : Fin 2048, x (ix2 p k) := by
  refine (Ideal.multiReduction_add_single x 0x00000000#32 h hφ hacc (ix1 p)).trans ?_
  show ∑ k : Fin 2048, x (h.lift (ix1 p) k) = ∑ k : Fin 2048, x (ix2 p k)
  refine Finset.sum_congr rfl fun k _ => congrArg x ?_
  funext a
  match a with
  | ⟨0, _⟩ => rfl
  | ⟨1, _⟩ => rfl

/-- The first result of the body at `(p, q)`: the sign of the block's entry minus its row's mean. -/
theorem pay1_apply (x0 : Vec Ideal S256x2048 .f32) (p : Fin 256) (q : Fin 2048) :
    k0_pay1 (F := Ideal) x0 (ix2 p q)
      = Ideal.sign (x0 (ix2 p q)
          - Ideal.div (∑ k : Fin 2048, x0 (ix2 p k)) (Ideal.ofBits .f32 0x45000000#32)) := by
  unfold k0_pay1
  refine (Ideal.jnp_sign_eq_sign_f32 _).trans (congrArg Ideal.sign ?_)
  refine congrArg (fun z => x0 (ix2 p q) - z) ?_
  refine (broadcastTo_col_apply _ _ p q).trans ?_
  refine congrArg (fun z => Ideal.div z (Ideal.ofBits .f32 0x45000000#32)) ?_
  refine (shapeCast_col_apply _ _ p 0).trans ?_
  exact rowSum_apply x0 _ _ _ p

/-- The second result of the body at row `p`: the mean of the absolute values of the block's row. -/
theorem pay2_apply (x0 : Vec Ideal S256x2048 .f32) (p : Fin 256) (u : Fin 1) :
    k0_pay2 (F := Ideal) x0 (ix2 p u)
      = Ideal.div (∑ k : Fin 2048, max (x0 (ix2 p k)) (-(x0 (ix2 p k)))) (Ideal.ofBits .f32 0x45000000#32) := by
  unfold k0_pay2
  refine congrArg (fun z => Ideal.div z (Ideal.ofBits .f32 0x45000000#32)) ?_
  refine (shapeCast_col_apply _ _ p u).trans ?_
  exact rowSum_apply (absf x0) _ _ _ p

/-- If a block's row `p` is row `r` of an array, the body's first result on that row is the array's sign pattern on row `r`. -/
theorem pay1_eq_signArr (x0 : Vec Ideal S256x2048 .f32) (A : S2048x2048.Idx → EReal) (p : Fin 256) (r q : Fin 2048)
    (e : ∀ k : Fin 2048, x0 (ix2 p k) = A (ix2 r k)) :
    k0_pay1 (F := Ideal) x0 (ix2 p q) = Cert.Spec.signArr A (ix2 r q) := by
  rw [pay1_apply, e q, Finset.sum_congr rfl (fun k _ => e k)]
  rfl

/-- If a block's row `p` is row `r` of an array, the body's second result on that row is the array's scale on row `r`. -/
theorem pay2_eq_scaleCol (x0 : Vec Ideal S256x2048 .f32) (A : S2048x2048.Idx → EReal) (p : Fin 256) (r : Fin 2048) (u : Fin 1)
    (e : ∀ k : Fin 2048, x0 (ix2 p k) = A (ix2 r k)) :
    k0_pay2 (F := Ideal) x0 (ix2 p u) = Cert.Spec.scaleCol A (ix2 r u) := by
  rw [pay2_apply, Finset.sum_congr rfl (fun k _ => by rw [e k])]
  rfl

/-! ## From the blocks to the arrays -/

private theorem hz : (![0, 0] : Fin 2 → Nat) = fun _ => 0 := funext fun a => by fin_cases a <;> rfl

/-- The index maps of the three windows, over the grid: at point `t` each window is at block row `t`, block column 0. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weight block at point `t` is rows `256 t … 256 t + 255` of the weight array. -/
theorem iblk_apply (c : Dev nD) (t : Fin cfg0.N) (p : Fin 256) (k : Fin 2048) (r : Fin 2048)
    (hr : r.val = t.val * 256 + p.val) :
    (iblk0 V c 0 t : Vec Ideal S256x2048 .f32) (ix2 p k) = (V c main_arg1 : S2048x2048.Idx → EReal) (ix2 r k) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- What point `t` writes back to the sign array is block `t` of the weight array's sign patterns. -/
theorem flushed1_eq (c : Dev nD) (t : Fin cfg0.N) :
    (dat0 (F := Ideal) V c).flushed 1 t
      = ((cfg0.win 1).blk t).view.read (Elt Ideal) (Cert.Spec.signArr (V c main_arg1) : S2048x2048.Idx → EReal) := by
  show (cfg0.win 1).cut (grid0.coords t) ((dat0 V c).after 1 t) = _
  rw [after0_1]
  unfold out0_1
  rw [View.canon_unit_zero hz]
  simp only [View.ld_unit_zero (S := S256x2048) hz]
  funext j
  have hj0 : (j 0).val < 256 := (j 0).isLt
  have hj1 : (j 1).val < 2048 := (j 1).isLt
  have ht : t.val < 8 := N_0 ▸ t.isLt
  obtain ⟨-, -, e2, e3, -, -⟩ := idx_facts t
  have hL : (win0 1).xinj (grid0.coords t) j = ix2 (⟨(j 0).val, hj0⟩ : Fin 256) (⟨(j 1).val, hj1⟩ : Fin 2048) := by
    funext a
    match a with
    | ⟨0, _⟩ => rfl
    | ⟨1, _⟩ => rfl
  have hR : ((View.whole main_v0_0).slice ((win0 1).rect t)).emb j
      = ix2 (⟨t.val * 256 + (j 0).val, by omega⟩ : Fin 2048) (⟨(j 1).val, hj1⟩ : Fin 2048) := by
    funext a
    apply Fin.ext
    match a with
    | ⟨0, _⟩ => show win0_1.index t (0 : Fin 2) * 256 + 1 * (j 0).val = t.val * 256 + (j 0).val; rw [e2]; omega
    | ⟨1, _⟩ => show win0_1.index t (1 : Fin 2) * 2048 + 1 * (j 1).val = (j 1).val; rw [e3]; omega
  refine (congrArg (k0_pay1 (F := Ideal) (iblk0 V c 0 t)) hL).trans ?_
  refine Eq.trans ?_ (congrArg (Cert.Spec.signArr (V c main_arg1) : S2048x2048.Idx → EReal) hR).symm
  exact pay1_eq_signArr (iblk0 V c 0 t) (V c main_arg1) _ _ _ fun k => iblk_apply V c t _ k _ rfl

/-- What point `t` writes back to the scale column is block `t` of the weight array's scales. -/
theorem flushed2_eq (c : Dev nD) (t : Fin cfg0.N) :
    (dat0 (F := Ideal) V c).flushed 2 t
      = ((cfg0.win 2).blk t).view.read (Elt Ideal) (Cert.Spec.scaleCol (V c main_arg1) : S2048x1.Idx → EReal) := by
  show (cfg0.win 2).cut (grid0.coords t) ((dat0 V c).after 2 t) = _
  rw [after0_2]
  unfold out0_2
  rw [View.canon_unit_zero hz]
  simp only [View.ld_unit_zero (S := S256x2048) hz]
  funext j
  have hj0 : (j 0).val < 256 := (j 0).isLt
  have hj1 : (j 1).val < 1 := (j 1).isLt
  have ht : t.val < 8 := N_0 ▸ t.isLt
  obtain ⟨-, -, -, -, e4, e5⟩ := idx_facts t
  have hL : (win0 2).xinj (grid0.coords t) j = ix2 (⟨(j 0).val, hj0⟩ : Fin 256) (⟨(j 1).val, hj1⟩ : Fin 1) := by
    funext a
    match a with
    | ⟨0, _⟩ => rfl
    | ⟨1, _⟩ => rfl
  have hR : ((View.whole main_v0_1).slice ((win0 2).rect t)).emb j
      = ix2 (⟨t.val * 256 + (j 0).val, by omega⟩ : Fin 2048) (⟨(j 1).val, hj1⟩ : Fin 1) := by
    funext a
    apply Fin.ext
    match a with
    | ⟨0, _⟩ => show win0_2.index t (0 : Fin 2) * 256 + 1 * (j 0).val = t.val * 256 + (j 0).val; rw [e4]; omega
    | ⟨1, _⟩ => show win0_2.index t (1 : Fin 2) * 1 + 1 * (j 1).val = (j 1).val; rw [e5]; omega
  refine (congrArg (k0_pay2 (F := Ideal) (iblk0 V c 0 t)) hL).trans ?_
  refine Eq.trans ?_ (congrArg (Cert.Spec.scaleCol (V c main_arg1) : S2048x1.Idx → EReal) hR).symm
  exact pay2_eq_scaleCol (iblk0 V c 0 t) (V c main_arg1) _ _ _ fun k => iblk_apply V c t _ k _ rfl

/-- An index of the sign array is in point `t`'s block when each coordinate is in the block's range on its axis. -/
private theorem mem_blk1 (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0_0).slice (win0_1.rect t)).set ↔ _
  rw [View.set_slice_whole, Rect.mem_set_unit]
  exact Iff.rfl

/-- The same for the scale column. -/
private theorem mem_blk2 (t : Fin cfg0.N) (i : S2048x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v0_1).slice (win0_2.rect t)).set ↔ _
  rw [View.set_slice_whole, Rect.mem_set_unit]
  exact Iff.rfl

/-- Row `r` of the sign array lies in the block of point `r / 256`, which is written back. -/
private theorem cover1 (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ : ∃ t : Fin cfg0.N, t.val = (i 0).val / 256 :=
    ⟨⟨(i 0).val / 256, by rw [show cfg0.N = 8 from N_0]; omega⟩, rfl⟩
  obtain ⟨-, -, e2, e3, -, -⟩ := idx_facts t
  refine ⟨t, flush0_1 t, ?_⟩
  rw [mem_blk1]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 2048 ≤ (i 1).val ∧ (i 1).val < win0_1.index t (1 : Fin 2) * 2048 + 2048
    rw [e3]; omega

/-- Row `r` of the scale column lies in the block of point `r / 256`, which is written back. -/
private theorem cover2 (i : S2048x1.Idx) :
    ∃ t : Fin cfg0.N, (cfg0.win 2).flush t = true ∧ i ∈ ((cfg0.win 2).blk t).view.set := by
  have hi0 : (i 0).val < 2048 := (i 0).isLt
  have hi1 : (i 1).val < 1 := (i 1).isLt
  obtain ⟨t, ht⟩ : ∃ t : Fin cfg0.N, t.val = (i 0).val / 256 :=
    ⟨⟨(i 0).val / 256, by rw [show cfg0.N = 8 from N_0]; omega⟩, rfl⟩
  obtain ⟨-, -, -, -, e4, e5⟩ := idx_facts t
  refine ⟨t, flush0_2 t, ?_⟩
  rw [mem_blk2]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 1 ≤ (i 1).val ∧ (i 1).val < win0_2.index t (1 : Fin 2) * 1 + 1
    rw [e5]; omega

/-- After the region the sign array holds, row by row, the sign pattern of the weight array's rows. -/
theorem signs (c : Dev nD) :
    (dat0 (F := Ideal) V c).arrAt 1 cfg0.N = (Cert.Spec.signArr (V c main_arg1) : S2048x2048.Idx → EReal) :=
  (dat0 (F := Ideal) V c).arrAt_eq_of_cover 1 (Cert.Spec.signArr (V c main_arg1) : S2048x2048.Idx → EReal)
    (fun t _ => flushed1_eq V c t) cover1

/-- After the region the scale column holds, row by row, the mean absolute value of the weight array's rows. -/
theorem scales (c : Dev nD) :
    (dat0 (F := Ideal) V c).arrAt 2 cfg0.N = (Cert.Spec.scaleCol (V c main_arg1) : S2048x1.Idx → EReal) :=
  (dat0 (F := Ideal) V c).arrAt_eq_of_cover 2 (Cert.Spec.scaleCol (V c main_arg1) : S2048x1.Idx → EReal)
    (fun t _ => flushed2_eq V c t) cover2

end Cert.KernelIdeal.Region0

end
-- ==== Proof.Region1.lean ====
/-
  The second kernel region, at the extended reals: it reads the activation array in blocks of 512 whole rows and
  writes, for each row, the quantised row (the normalised row times seven over its peak, clipped) and, in a one-column
  array, the row's peak (the largest absolute value of the normalised row, at least the small constant). Every output
  row depends on the same input row only, so the sixteen blocks together give the two whole arrays as functions of the
  activation array as the region finds it.
-/
import proofs.«109959_j77799037599823_1_alg».proof.Proof.Gen.KernelIdeal.Frame
import proofs.«109959_j77799037599823_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat Cfg Window)

namespace Cert.KernelIdeal.Region1

open Cert.KernelIdeal Cert.KernelIdeal.Gen

variable (V : (c : Dev nD) → (b : Ref sig .tc) → Buf (Elt Ideal) ((c : Thread nD τ).loc b))

/-! ## Layout operations on a column of row values, read at an index -/

/-- A vector of `a` entries cast to a column reads, at `(p, u)`, the entry `p`. -/
private theorem shapeCast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at `(p, q)`, the column's entry `p`. -/
private theorem broadcastTo_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  by_cases ha : a = 1
  · subst ha
    refine broadcastTo_apply v h (ix2 p q) (ix2 p (0 : Fin 1)) fun ax => ?_
    match ax with
    | ⟨0, _⟩ => show p.val = if (1 : ℕ) = 1 then 0 else p.val; rw [if_pos rfl]; omega
    | ⟨1, _⟩ => rfl
  · refine broadcastTo_apply v h (ix2 p q) (ix2 p (0 : Fin 1)) fun ax => ?_
    match ax with
    | ⟨0, _⟩ => show p.val = if a = 1 then 0 else p.val; rw [if_neg ha]
    | ⟨1, _⟩ => rfl

/-- The index over row `p` with `k` put on the reduced column axis is `(p, k)`. -/
private theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- A sum along the rows of a block, read at row `p`: the sum of that row's entries. -/
private theorem rowSum_apply (src : FVec Ideal S512x2048 .f32) (h : S512x2048.Reduces [1] S512) (hφ : FKind.Formats .f32)
    (hacc : (0x00000000#32 : BitVec 32) = 0x00000000#32) (p : Fin 512) :
    multiReduction .add [1] S512 src 0x00000000#32 h hφ hacc (ix1 p) = ∑ k : Fin 2048, src (ix2 p k) :=
  (Ideal.multiReduction_add_single src _ h hφ hacc (ix1 p)).trans
    (Finset.sum_congr rfl fun k _ => congrArg src (lift_row h p k))

/-- A maximum along the rows of a block, read at row `p`: the fold of `max` from the accumulator's value over
    that row's entries. -/
private theorem rowMax_apply (src : FVec Ideal S512x2048 .f32) (h : S512x2048.Reduces [1] S512) (hφ : FKind.Formats .f32)
    (hacc : (0xFF800000#32 : BitVec 32) = 0xFF800000#32) (p : Fin 512) :
    multiReduction .maximumf [1] S512 src 0xFF800000#32 h hφ hacc (ix1 p)
      = (Finset.univ : Finset (Fin 2048)).fold max (Ideal.ofBits .f32 0xFF800000#32) (fun k => src (ix2 p k)) :=
  (Ideal.multiReduction_maximumf_single src _ h hφ hacc (ix1 p)).trans
    (congrArg (Finset.fold max (Ideal.ofBits .f32 0xFF800000#32) · (Finset.univ : Finset (Fin 2048)))
      (funext fun k => congrArg src (lift_row h p k)))

/-! ## Pointwise operations with no lemma of their own in the library, read at an index -/

private theorem rsqrt_apply {s : Shape} {φ : FTy} (a : FVec Ideal s φ) (i : s.Idx) : rsqrt a i = Ideal.rsqrt (a i) := rfl
private theorem absf_apply {s : Shape} {φ : FTy} (a : FVec Ideal s φ) (i : s.Idx) : absf a i = max (a i) (-(a i)) := rfl

/-! ## The body's three payloads at an index -/

/-- The normalised block at `(p, q)`: entry `q` of the normalised row `p` of the block. -/
theorem pay1_apply (x0 : Vec Ideal S512x2048 .f32) (p : Fin 512) (q : Fin 2048) :
    k1_pay1 x0 (ix2 p q) = Cert.Spec.normK (fun k => x0 (ix2 p k)) q := by
  unfold k1_pay1
  dsimp only
  simp only [mulf_apply, subf_apply, addf_apply, divf_apply, rsqrt_apply, broadcast_apply, broadcastTo_col, shapeCast_col,
    Ideal.ofBits_def]
  rw [rowSum_apply, rowSum_apply]
  simp only [mulf_apply, subf_apply, addf_apply, divf_apply, rsqrt_apply, broadcast_apply, broadcastTo_col, shapeCast_col,
    Ideal.ofBits_def]
  rw [rowSum_apply]
  rfl

/-- The peak column at row `p`: the peak of the normalised row `p` of the block. -/
theorem pay2_apply (x0 : Vec Ideal S512x2048 .f32) (p : Fin 512) (u : Fin 1) :
    k1_pay2 x0 (ix2 p u) = Cert.Spec.peak (Cert.Spec.normK (fun k => x0 (ix2 p k))) := by
  have e : (fun k : Fin 2048 => absf (k1_pay1 x0) (ix2 p k)) = Cert.Spec.absRow (Cert.Spec.normK fun k => x0 (ix2 p k)) :=
    funext fun k => by rw [absf_apply, pay1_apply]; rfl
  unfold k1_pay2
  rw [maximumf_apply, shapeCast_col, broadcast_apply, rowMax_apply, e, Ideal.ofBits_def]
  unfold Cert.Spec.peak Cert.Spec.cNegInf Cert.Spec.cEps
  rfl

/-- The quantised block at `(p, q)`: entry `q` of the quantised row `p` of the block. -/
theorem pay3_apply (x0 : Vec Ideal S512x2048 .f32) (p : Fin 512) (q : Fin 2048) :
    k1_pay3 x0 (ix2 p q) = Cert.Spec.quantK (fun k => x0 (ix2 p k)) q := by
  unfold k1_pay3
  rw [truncf_apply, minimumf_apply, maximumf_apply, mulf_apply, broadcastTo_col, divf_apply, pay1_apply, pay2_apply]
  simp only [broadcast_apply, Ideal.ofBits_def]
  unfold Cert.Spec.quantK Cert.Spec.clip Cert.Spec.scaled Cert.Spec.cHi Cert.Spec.cLo Cert.Spec.c7
  rfl

/-! ## From a block to the array: a block of whole rows

A block of 512 whole rows whose row `p` is row `n · 512 + p` of an array has, as the body's results, the
corresponding rows of the quantised array and of the peak column: every result row depends on its own input row only. -/

/-- The quantised payload of a block of rows of `A`, at `y`: the quantised array at the index `y` sits at. -/
private theorem quant_of_rows (A : S8192x2048.Idx → EReal) (x0 : Vec Ideal S512x2048 .f32) (n : ℕ)
    (hx : ∀ (y : S512x2048.Idx) (i : S8192x2048.Idx), (i 0).val = n * 512 + (y 0).val → (i 1).val = (y 1).val → x0 y = A i)
    (y : S512x2048.Idx) (i : S8192x2048.Idx) (hi0 : (i 0).val = n * 512 + (y 0).val) (hi1 : (i 1).val = (y 1).val) :
    k1_pay3 x0 y = Cert.Spec.quantArr A i := by
  obtain ⟨p, q, rfl⟩ : ∃ (p : Fin 512) (q : Fin 2048), y = ix2 p q := ⟨y 0, y 1, eq_ix2 y⟩
  obtain ⟨r, s, rfl⟩ : ∃ (r : Fin 8192) (s : Fin 2048), i = ix2 r s := ⟨i 0, i 1, eq_ix2 i⟩
  rw [pay3_apply]
  obtain rfl : s = q := Fin.ext hi1
  show Cert.Spec.quantK (fun k => x0 (ix2 p k)) s = Cert.Spec.quantK (Cert.Spec.rowOf A r) s
  congr 1
  funext k
  exact hx (ix2 p k) (ix2 r k) hi0 rfl

/-- The peak payload of a block of rows of `A`, at `y`: the peak column at the row `y` sits at. -/
private theorem peak_of_rows (A : S8192x2048.Idx → EReal) (x0 : Vec Ideal S512x2048 .f32) (n : ℕ)
    (hx : ∀ (y : S512x2048.Idx) (i : S8192x2048.Idx), (i 0).val = n * 512 + (y 0).val → (i 1).val = (y 1).val → x0 y = A i)
    (y : S512x1.Idx) (i : S8192x1.Idx) (hi0 : (i 0).val = n * 512 + (y 0).val) :
    k1_pay2 x0 y = Cert.Spec.peakCol A i := by
  obtain ⟨p, u, rfl⟩ : ∃ (p : Fin 512) (u : Fin 1), y = ix2 p u := ⟨y 0, y 1, eq_ix2 y⟩
  obtain ⟨r, s, rfl⟩ : ∃ (r : Fin 8192) (s : Fin 1), i = ix2 r s := ⟨i 0, i 1, eq_ix2 i⟩
  rw [pay2_apply]
  show Cert.Spec.peak (Cert.Spec.normK fun k => x0 (ix2 p k)) = Cert.Spec.peak (Cert.Spec.normK (Cert.Spec.rowOf A r))
  congr 2
  funext k
  exact hx (ix2 p k) (ix2 r k) hi0 rfl

/-! ## The sixteen points: what each writes back, and the whole arrays -/

private theorem hz : (![0, 0] : Fin 2 → Nat) = fun _ => 0 := funext fun a => by fin_cases a <;> rfl

/-- The index maps over the grid: at point `t` every window is at block row `t`, block column 0. -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The input block at point `t` is rows `512 t … 512 t + 511` of the activation array. -/
private theorem iblk_apply (c : Dev nD) (t : Fin cfg1.N) (y : S512x2048.Idx) (i : S8192x2048.Idx)
    (hi0 : (i 0).val = t.val * 512 + (y 0).val) (hi1 : (i 1).val = (y 1).val) :
    (iblk1 V c 0 t : Vec Ideal S512x2048 .f32) y = (V c main_arg0 : S8192x2048.Idx → EReal) i := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * (y 0).val = (i 0).val; rw [e0, hi0]; omega
  | ⟨1, _⟩ => show win1_0.index t (1 : Fin 2) * 2048 + 1 * (y 1).val = (i 1).val; rw [e1, hi1]; omega

/-- What point `t` writes back to the quantised array is block `t` of the quantised rows of the activation array. -/
private theorem flushed1_eq (c : Dev nD) (t : Fin cfg1.N) :
    (dat1 (F := Ideal) V c).flushed 1 t
      = ((cfg1.win 1).blk t).view.read (Elt Ideal) (Cert.Spec.quantArr (V c main_arg0) : S8192x2048.Idx → EReal) := by
  show (cfg1.win 1).cut (grid1.coords t) ((dat1 V c).after 1 t) = _
  rw [after1_1]
  unfold out1_1
  rw [View.canon_unit_zero hz]
  simp only [View.ld_unit_zero (S := S512x2048) hz]
  obtain ⟨-, -, e0, e1, -⟩ := idx_facts t
  funext j
  show k1_pay3 (iblk1 V c 0 t) j = (Cert.Spec.quantArr (V c main_arg0) : S8192x2048.Idx → EReal) (((cfg1.win 1).blk t).view.emb j)
  refine quant_of_rows (V c main_arg0) (iblk1 V c 0 t) t.val (fun y i h0 h1 => iblk_apply V c t y i h0 h1) j _ ?_ ?_
  · show win1_1.index t (0 : Fin 2) * 512 + 1 * (j 0).val = t.val * 512 + (j 0).val
    rw [e0]; omega
  · show win1_1.index t (1 : Fin 2) * 2048 + 1 * (j 1).val = (j 1).val
    rw [e1]; omega

/-- What point `t` writes back to the peak column is block `t` of the peaks of the activation array's rows. -/
private theorem flushed2_eq (c : Dev nD) (t : Fin cfg1.N) :
    (dat1 (F := Ideal) V c).flushed 2 t
      = ((cfg1.win 2).blk t).view.read (Elt Ideal) (Cert.Spec.peakCol (V c main_arg0) : S8192x1.Idx → EReal) := by
  show (cfg1.win 2).cut (grid1.coords t) ((dat1 V c).after 2 t) = _
  rw [after1_2]
  unfold out1_2
  rw [View.canon_unit_zero hz]
  simp only [View.ld_unit_zero (S := S512x2048) hz]
  obtain ⟨-, -, -, -, e0, e1⟩ := idx_facts t
  funext j
  show k1_pay2 (iblk1 V c 0 t) j = (Cert.Spec.peakCol (V c main_arg0) : S8192x1.Idx → EReal) (((cfg1.win 2).blk t).view.emb j)
  refine peak_of_rows (V c main_arg0) (iblk1 V c 0 t) t.val (fun y i h0 h1 => iblk_apply V c t y i h0 h1) j _ ?_
  show win1_2.index t (0 : Fin 2) * 512 + 1 * (j 0).val = t.val * 512 + (j 0).val
  rw [e0]; omega

/-- An index of the quantised array is in point `t`'s block iff each coordinate is in the block's range on its axis. -/
private theorem mem_blk1 (t : Fin cfg1.N) (i : S8192x2048.Idx) :
    i ∈ ((cfg1.win 1).blk t).view.set ↔ ∀ a : Fin 2, win1_1.index t a * S512x2048.size a ≤ (i a).val
      ∧ (i a).val < win1_1.index t a * S512x2048.size a + S512x2048.size a := by
  show i ∈ ((View.whole main_v1_0).slice (win1_1.rect t)).set ↔ _
  rw [View.set_slice_whole, Rect.mem_set_unit]
  exact Iff.rfl

/-- The same for the peak column. -/
private theorem mem_blk2 (t : Fin cfg1.N) (i : S8192x1.Idx) :
    i ∈ ((cfg1.win 2).blk t).view.set ↔ ∀ a : Fin 2, win1_2.index t a * S512x1.size a ≤ (i a).val
      ∧ (i a).val < win1_2.index t a * S512x1.size a + S512x1.size a := by
  show i ∈ ((View.whole main_v1_1).slice (win1_2.rect t)).set ↔ _
  rw [View.set_slice_whole, Rect.mem_set_unit]
  exact Iff.rfl

/-- Row `r` of the quantised array is written by point `r / 512`: the sixteen blocks cover the array. -/
private theorem cover1 (i : S8192x2048.Idx) :
    ∃ t : Fin cfg1.N, (cfg1.win 1).flush t = true ∧ i ∈ ((cfg1.win 1).blk t).view.set := by
  have hi0 : (i 0).val < 8192 := (i 0).isLt
  have hi1 : (i 1).val < 2048 := (i 1).isLt
  obtain ⟨t, ht⟩ : ∃ t : Fin cfg1.N, t.val = (i 0).val / 512 :=
    ⟨⟨(i 0).val / 512, by rw [show cfg1.N = 16 from N_1]; omega⟩, rfl⟩
  obtain ⟨-, -, e0, e1, -⟩ := idx_facts t
  refine ⟨t, flush1_1 t, ?_⟩
  rw [mem_blk1]
  intro a
  match a with
  | ⟨0, _⟩ =>
    show win1_1.index t (0 : Fin 2) * 512 ≤ (i 0).val ∧ (i 0).val < win1_1.index t (0 : Fin 2) * 512 + 512
    rw [e0, ht]; omega
  | ⟨1, _⟩ =>
    show win1_1.index t (1 : Fin 2) * 2048 ≤ (i 1).val ∧ (i 1).val < win1_1.index t (1 : Fin 2) * 2048 + 2048
    rw [e1]; omega

/-- Row `r` of the peak column is written by point `r / 512`. -/
private theorem cover2 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, ht⟩ : ∃ t : Fin cfg1.N, t.val = (i 0).val / 512 :=
    ⟨⟨(i 0).val / 512, by rw [show cfg1.N = 16 from N_1]; omega⟩, rfl⟩
  obtain ⟨-, -, -, -, e0, e1⟩ := idx_facts t
  refine ⟨t, flush1_2 t, ?_⟩
  rw [mem_blk2]
  intro a
  match a with
  | ⟨0, _⟩ =>
    show win1_2.index t (0 : Fin 2) * 512 ≤ (i 0).val ∧ (i 0).val < win1_2.index t (0 : Fin 2) * 512 + 512
    rw [e0, ht]; omega
  | ⟨1, _⟩ =>
    show win1_2.index t (1 : Fin 2) * 1 ≤ (i 1).val ∧ (i 1).val < win1_2.index t (1 : Fin 2) * 1 + 1
    rw [e1]; omega

/-- After the region the quantised array holds, row by row, the quantised rows of the activation array. -/
theorem quants (c : Dev nD) :
    (dat1 (F := Ideal) V c).arrAt 1 cfg1.N = (Cert.Spec.quantArr (V c main_arg0) : S8192x2048.Idx → EReal) :=
  (dat1 (F := Ideal) V c).arrAt_eq_of_cover 1 _ (fun t _ => flushed1_eq V c t) cover1

/-- After the region the peak column holds, row by row, the peaks of the activation array's normalised rows. -/
theorem peaks (c : Dev nD) :
    (dat1 (F := Ideal) V c).arrAt 2 cfg1.N = (Cert.Spec.peakCol (V c main_arg0) : S8192x1.Idx → EReal) :=
  (dat1 (F := Ideal) V c).arrAt_eq_of_cover 2 _ (fun t _ => flushed2_eq V c t) cover2

end Cert.KernelIdeal.Region1

end
-- ==== Proof.Region2.lean ====
/-
  The third kernel region, at the extended reals: for each block of 512 rows of the quantised array it multiplies the
  block with the whole sign array along the columns of both, scales entry (r, o) by scale(o) times peak(r) times the
  rational 1/7, and adds bias(o). The scale and the bias are row vectors read whole at every point, the peak a column
  read in blocks of 512. The sixteen blocks together give the whole output as one function of the five arrays as the
  region finds them.
-/
import proofs.«109959_j77799037599823_1_alg».proof.Proof.Gen.KernelIdeal.Frame
import proofs.«109959_j77799037599823_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat Cfg Window)

namespace Cert.KernelIdeal.Region2

open Cert.KernelIdeal Cert.KernelIdeal.Gen

variable (V : (c : Dev nD) → (b : Ref sig .tc) → Buf (Elt Ideal) ((c : Thread nD τ).loc b))

/-- The zero offsets of a whole-block load or store, as the constant function. -/
private theorem hz : (![0, 0] : Fin 2 → Nat) = fun _ => 0 :=
  funext fun a => by match a with | ⟨0, _⟩ => rfl | ⟨1, _⟩ => rfl

/-! ## The product at an index

The product contracts axis 1 of both operands: its left operand is read at (row of the output, k), its right
operand at (column of the output, k). -/

private theorem lhs_axis0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
private theorem lhs_axis1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
private theorem rhs_axis0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
private theorem rhs_axis1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into the zero accumulator, at entry (p, q): the sum over k of left (p, k) times right (q, k). -/
private theorem product_apply (y0 : FVec Ideal S512x2048 .bf16) (y1 : FVec Ideal S2048x2048 .bf16) (p : Fin 512) (q : Fin 2048) :
    matmul (F := Ideal) dot_S512x2048_S2048x2048_S512x2048_1_1_0_0_n_n none y0 y1 (constant (F := Ideal) S512x2048 .f32 0x00000000#32) (ix2 p q)
      = ∑ k : Fin 2048, y0 (ix2 p k) * y1 (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## The payload at an index -/

/-- The named reciprocal is the rational 1/7 at the extended reals, by the certificate's table. -/
private theorem inv7_eq : Named.named (F := Ideal) κ "inv_7" (φ := .f32) 0x3E124925#32 = Cert.Spec.inv7 :=
  IdealRules.named_const.ideal_named_scalar _ _ _ _ rfl

/-- A row vector spread down the rows: entry (p, q) is the vector's entry (0, q). -/
private theorem row_spread (x : FVec Ideal S1x2048 .f32) (p : Fin 512) (q : Fin 2048) :
    broadcastTo S512x2048 x broadcasts_S1x2048_S512x2048 (ix2 p q) = x (ix2 0 q) :=
  broadcastTo_apply x broadcasts_S1x2048_S512x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- A column spread along the columns: entry (p, q) is the column's entry (p, 0). -/
private theorem col_spread (x : FVec Ideal S512x1 .f32) (p : Fin 512) (q : Fin 2048) :
    broadcastTo S512x2048 x broadcasts_S512x1_S512x2048 (ix2 p q) = x (ix2 p 0) :=
  broadcastTo_apply x broadcasts_S512x1_S512x2048 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- Entry (p, q) of what one grid point computes from its five blocks: the dot product of row p of the quantised block
    with row q of the sign array, times scale(q) times peak(p) times 1/7, plus bias(q). -/
theorem payload_apply (x0 : Vec Ideal S512x2048 .bf16) (x1 : Vec Ideal S2048x2048 .bf16) (x2 : Vec Ideal S1x2048 .f32)
    (x3 : Vec Ideal S512x1 .f32) (x4 : Vec Ideal S1x2048 .f32) (p : Fin 512) (q : Fin 2048) :
    k2_pay1 (F := Ideal) x0 x1 x2 x3 x4 (ix2 p q)
      = (∑ k : Fin 2048, x0 (ix2 p k) * x1 (ix2 q k)) * ((x2 (ix2 0 q) * x3 (ix2 p 0)) * Cert.Spec.inv7) + x4 (ix2 0 q) := by
  unfold k2_pay1
  simp only [shapeCast_self]
  rw [addf_apply, mulf_apply, mulf_apply, mulf_apply, broadcast_apply, product_apply, row_spread, col_spread, row_spread, inv7_eq]

/-! ## From the blocks to the array -/

/-- The region's index maps over the sixteen grid points: the quantised array, the peak column and the output move
    down by one block of rows per point; the sign array, the scale row and the bias row stay at block (0, 0);
    and every point writes its output block back. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_5.flush t = true :=
  (by decide +kernel : ∀ t : Fin grid2.N, _)

/-- The quantised block of point t is rows 512 t … 512 t + 511 of the quantised array. -/
theorem quant_block (c : Dev nD) (t : Fin cfg2.N) (y : S512x2048.Idx) (i : S8192x2048.Idx)
    (h0 : (i 0).val = t.val * 512 + (y 0).val) (h1 : (i 1).val = (y 1).val) :
    (iblk2 V c 0 t : Vec Ideal S512x2048 .bf16) y = (V c main_v1_0 : S8192x2048.Idx → EReal) i := by
  obtain ⟨e0, e1, -⟩ := idx_facts t
  unfold iblk2
  rw [View.read_apply]
  show V c main_v1_0 _ = V c main_v1_0 _
  congr 1
  funext a
  apply Fin.ext
  match a with
  | ⟨0, _⟩ => show win2_0.index t (0 : Fin 2) * 512 + 1 * (y 0).val = (i 0).val; omega
  | ⟨1, _⟩ => show win2_0.index t (1 : Fin 2) * 2048 + 1 * (y 1).val = (i 1).val; omega

/-- The peak block of point t is rows 512 t … 512 t + 511 of the peak column. -/
theorem peak_block (c : Dev nD) (t : Fin cfg2.N) (y : S512x1.Idx) (i : S8192x1.Idx)
    (h0 : (i 0).val = t.val * 512 + (y 0).val) :
    (iblk2 V c 3 t : Vec Ideal S512x1 .f32) y = (V c main_v1_1 : S8192x1.Idx → EReal) i := by
  obtain ⟨-, -, -, -, -, -, e0, e1, -⟩ := idx_facts t
  unfold iblk2
  rw [View.read_apply]
  show V c main_v1_1 _ = V c main_v1_1 _
  congr 1
  funext a
  apply Fin.ext
  have hy : (y 1).val < 1 := (y 1).isLt
  have hi : (i 1).val < 1 := (i 1).isLt
  match a with
  | ⟨0, _⟩ => show win2_3.index t (0 : Fin 2) * 512 + 1 * (y 0).val = (i 0).val; omega
  | ⟨1, _⟩ => show win2_3.index t (1 : Fin 2) * 1 + 1 * (y 1).val = (i 1).val; omega

/-- The sign block of every point is the whole sign array. -/
theorem sign_block (c : Dev nD) (t : Fin cfg2.N) :
    (iblk2 V c 1 t : Vec Ideal S2048x2048 .bf16) = (V c main_v0_0 : S2048x2048.Idx → EReal) := by
  obtain ⟨-, -, e0, e1, -⟩ := idx_facts t
  funext y
  unfold iblk2
  rw [View.read_apply]
  show V c main_v0_0 _ = V c main_v0_0 _
  congr 1
  funext a
  apply Fin.ext
  match a with
  | ⟨0, _⟩ => show win2_1.index t (0 : Fin 2) * 2048 + 1 * (y 0).val = (y 0).val; omega
  | ⟨1, _⟩ => show win2_1.index t (1 : Fin 2) * 2048 + 1 * (y 1).val = (y 1).val; omega

/-- The scale block of every point is the whole scale row. -/
theorem scale_block (c : Dev nD) (t : Fin cfg2.N) :
    (iblk2 V c 2 t : Vec Ideal S1x2048 .f32) = (V c main_v2 : S1x2048.Idx → EReal) := by
  obtain ⟨-, -, -, -, e0, e1, -⟩ := idx_facts t
  funext y
  unfold iblk2
  rw [View.read_apply]
  show V c main_v2 _ = V c main_v2 _
  congr 1
  funext a
  apply Fin.ext
  match a with
  | ⟨0, _⟩ => show win2_2.index t (0 : Fin 2) * 1 + 1 * (y 0).val = (y 0).val; omega
  | ⟨1, _⟩ => show win2_2.index t (1 : Fin 2) * 2048 + 1 * (y 1).val = (y 1).val; omega

/-- The bias block of every point is the whole bias row. -/
theorem bias_block (c : Dev nD) (t : Fin cfg2.N) :
    (iblk2 V c 4 t : Vec Ideal S1x2048 .f32) = (V c main_v3 : S1x2048.Idx → EReal) := by
  obtain ⟨-, -, -, -, -, -, -, -, e0, e1, -⟩ := idx_facts t
  funext y
  unfold iblk2
  rw [View.read_apply]
  show V c main_v3 _ = V c main_v3 _
  congr 1
  funext a
  apply Fin.ext
  match a with
  | ⟨0, _⟩ => show win2_4.index t (0 : Fin 2) * 1 + 1 * (y 0).val = (y 0).val; omega
  | ⟨1, _⟩ => show win2_4.index t (1 : Fin 2) * 2048 + 1 * (y 1).val = (y 1).val; omega

/-- One point's payload against the whole-array function: if the quantised block and the peak block are the rows
    from T · 512 of their arrays and the three other blocks are their whole arrays, then entry j of the payload is
    entry (T · 512 + j 0, j 1) of the scaled product plus bias. -/
theorem point_eq (A0 : S8192x2048.Idx → EReal) (A1 : S2048x2048.Idx → EReal) (A2 : S1x2048.Idx → EReal)
    (A3 : S8192x1.Idx → EReal) (A4 : S1x2048.Idx → EReal)
    (x0 : Vec Ideal S512x2048 .bf16) (x1 : Vec Ideal S2048x2048 .bf16) (x2 : Vec Ideal S1x2048 .f32)
    (x3 : Vec Ideal S512x1 .f32) (x4 : Vec Ideal S1x2048 .f32) (T : Nat)
    (h0 : ∀ (y : S512x2048.Idx) (i : S8192x2048.Idx), (i 0).val = T * 512 + (y 0).val → (i 1).val = (y 1).val → x0 y = A0 i)
    (h1 : x1 = A1) (h2 : x2 = A2)
    (h3 : ∀ (y : S512x1.Idx) (i : S8192x1.Idx), (i 0).val = T * 512 + (y 0).val → x3 y = A3 i)
    (h4 : x4 = A4)
    (j : S512x2048.Idx) (i : S8192x2048.Idx) (hi0 : (i 0).val = T * 512 + (j 0).val) (hi1 : (i 1).val = (j 1).val) :
    k2_pay1 (F := Ideal) x0 x1 x2 x3 x4 j = Cert.Spec.gemm A0 A1 A2 A3 A4 i := by
  obtain ⟨p, q, rfl⟩ : ∃ (p : Fin 512) (q : Fin 2048), j = ix2 p q := ⟨j 0, j 1, eq_ix2 j⟩
  obtain ⟨r, o, rfl⟩ : ∃ (r : Fin 8192) (o : Fin 2048), i = ix2 r o := ⟨i 0, i 1, eq_ix2 i⟩
  have hq : o = q := Fin.ext hi1
  subst hq
  rw [payload_apply]
  show _ = (∑ k : Fin 2048, A0 (ix2 r k) * A1 (ix2 o k)) * ((A2 (ix2 0 o) * A3 (ix2 r 0)) * Cert.Spec.inv7) + A4 (ix2 0 o)
  rw [h1, h2, h4, h3 (ix2 p 0) (ix2 r 0) hi0]
  congr 2
  exact Finset.sum_congr rfl fun k _ => by rw [h0 (ix2 p k) (ix2 r k) hi0 rfl]

/-- What point t writes back is block t of the scaled product plus bias of the five arrays as the region finds them. -/
theorem flushed_eq (c : Dev nD) (t : Fin cfg2.N) :
    (dat2 (F := Ideal) V c).flushed 5 t
      = ((cfg2.win 5).blk t).view.read (Elt Ideal)
          (Cert.Spec.gemm (V c main_v1_0) (V c main_v0_0) (V c main_v2) (V c main_v1_1) (V c main_v3)) := by
  show (cfg2.win 5).cut (grid2.coords t) ((dat2 V c).after 5 t) = _
  rw [after2_5]
  unfold out2_5
  rw [View.canon_unit_zero hz]
  simp only [View.ld_unit_zero (S := S512x2048) hz, View.ld_unit_zero (S := S2048x2048) hz,
    View.ld_unit_zero (S := S1x2048) hz, View.ld_unit_zero (S := S512x1) hz]
  obtain ⟨-, -, -, -, -, -, -, -, -, -, e0, e1, -⟩ := idx_facts t
  funext j
  show k2_pay1 (F := Ideal) (iblk2 V c 0 t) (iblk2 V c 1 t) (iblk2 V c 2 t) (iblk2 V c 3 t) (iblk2 V c 4 t) j
    = Cert.Spec.gemm (V c main_v1_0) (V c main_v0_0) (V c main_v2) (V c main_v1_1) (V c main_v3) (((cfg2.win 5).blk t).view.emb j)
  refine point_eq (V c main_v1_0) (V c main_v0_0) (V c main_v2) (V c main_v1_1) (V c main_v3)
    (iblk2 V c 0 t) (iblk2 V c 1 t) (iblk2 V c 2 t) (iblk2 V c 3 t) (iblk2 V c 4 t) t.val
    (fun y i => quant_block V c t y i) (sign_block V c t) (scale_block V c t) (fun y i => peak_block V c t y i) (bias_block V c t)
    j (((cfg2.win 5).blk t).view.emb j) ?_ ?_
  · show win2_5.index t (0 : Fin 2) * 512 + 1 * (j 0).val = t.val * 512 + (j 0).val; omega
  · show win2_5.index t (1 : Fin 2) * 2048 + 1 * (j 1).val = (j 1).val; omega

/-- An index of the output array is in point t's block iff each coordinate is in the block's range on its axis. -/
theorem mem_blk (t : Fin cfg2.N) (i : S8192x2048.Idx) :
    i ∈ ((cfg2.win 5).blk t).view.set
      ↔ ∀ a : Fin 2, win2_5.index t a * S512x2048.size a ≤ (i a).val ∧ (i a).val < win2_5.index t a * S512x2048.size a + S512x2048.size a := by
  show i ∈ ((View.whole main_v4).slice (win2_5.rect t)).set ↔ _
  rw [View.set_slice_whole, Rect.mem_set_unit]
  exact Iff.rfl

/-- Row r of the output is written back by point r / 512: the sixteen blocks of 512 rows cover the 8192 rows. -/
theorem covered (i : S8192x2048.Idx) :
    ∃ t : Fin cfg2.N, (cfg2.win 5).flush t = true ∧ i ∈ ((cfg2.win 5).blk t).view.set := by
  have hi0 : (i 0).val < 8192 := (i 0).isLt
  have hi1 : (i 1).val < 2048 := (i 1).isLt
  have hN : cfg2.N = 16 := rfl
  let t : Fin cfg2.N := ⟨(i 0).val / 512, by rw [hN]; omega⟩
  obtain ⟨-, -, -, -, -, -, -, -, -, -, e0, e1, ef⟩ := idx_facts t
  have ht : t.val = (i 0).val / 512 := rfl
  refine ⟨t, ef, ?_⟩
  rw [mem_blk]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 2048 ≤ (i 1).val ∧ (i 1).val < win2_5.index t (1 : Fin 2) * 2048 + 2048; omega

/-- After the region the output array is the scaled product plus bias of the five arrays it read. -/
theorem product (c : Dev nD) :
    (dat2 (F := Ideal) V c).arrAt 5 cfg2.N
      = (Cert.Spec.gemm (V c main_v1_0) (V c main_v0_0) (V c main_v2) (V c main_v1_1) (V c main_v3) : S8192x2048.Idx → EReal) :=
  (dat2 (F := Ideal) V c).arrAt_eq_of_cover 5
    (Cert.Spec.gemm (V c main_v1_0) (V c main_v0_0) (V c main_v2) (V c main_v1_1) (V c main_v3))
    (fun t _ => flushed_eq V c t) covered

end Cert.KernelIdeal.Region2

end
-- ==== Proof.KernelValue.lean ====
/-
  The kernel program's result as one function of the three argument arrays, at the extended reals.

  The first region leaves the sign array and the scale column of the weight array; the second the quantised array and
  the peak column of the activation array; two host reshapes turn the scale column and the bias vector into row
  vectors; the third region multiplies and scales. Each buffer is followed from the region or operation that writes it
  to the region that reads it: a region changes only its own output arrays and a reshape only its result. Entry
  (r, o) of the result is then the kernel's form of the output entry of activation row r, weight row o and bias entry o:
  the reshaped scale at column o is the scale of weight row o, the peak column at row r the peak of activation row r.
-/
import proofs.«109959_j77799037599823_1_alg».proof.Proof.Gen.KernelIdeal.Frame
import proofs.«109959_j77799037599823_1_alg».proof.Proof.Spec
import proofs.«109959_j77799037599823_1_alg».proof.Proof.Region0
import proofs.«109959_j77799037599823_1_alg».proof.Proof.Region1
import proofs.«109959_j77799037599823_1_alg».proof.Proof.Region2
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.Spec

variable (m : (ℓ : Loc nD τ sig) → Buf (Elt Ideal) ℓ) (ρ : Dev nD → PrngReg)

/-- The activation array, the weight array and the bias vector as launched. -/
abbrev X (c : Dev nD) : S8192x2048.Idx → EReal := m ((c.tc : Thread nD τ).loc main_arg0)
abbrev Wt (c : Dev nD) : S2048x2048.Idx → EReal := m ((c.tc : Thread nD τ).loc main_arg1)
abbrev Bv (c : Dev nD) : S2048.Idx → EReal := m ((c.tc : Thread nD τ).loc main_arg2)

/-! ## After the first region -/

theorem W1_signs (c : Dev nD) : (W1 m ρ c (Proc.devRef .tc main_v0_0) : S2048x2048.Idx → EReal) = signArr (Wt m c) :=
  (W1_arr m ρ c 1).trans (Region0.signs (V0 m ρ) c)

theorem W1_scales (c : Dev nD) : (W1 m ρ c (Proc.devRef .tc main_v0_1) : S2048x1.Idx → EReal) = scaleCol (Wt m c) :=
  (W1_arr m ρ c 2).trans (Region0.scales (V0 m ρ) c)

theorem W1_X (c : Dev nD) : (W1 m ρ c (Proc.devRef .tc main_arg0) : S8192x2048.Idx → EReal) = X m c :=
  W1_of_ne m ρ c main_arg0 (by decide)

theorem W1_Bv (c : Dev nD) : (W1 m ρ c (Proc.devRef .tc main_arg2) : S2048.Idx → EReal) = Bv m c :=
  W1_of_ne m ρ c main_arg2 (by decide)

/-! ## After the second region -/

theorem W2_quants (c : Dev nD) : (W2 m ρ c (Proc.devRef .tc main_v1_0) : S8192x2048.Idx → EReal) = quantArr (X m c) :=
  (W2_arr m ρ c 1).trans ((Region1.quants (V1 m ρ) c).trans (congrArg quantArr (W1_X m ρ c)))

theorem W2_peaks (c : Dev nD) : (W2 m ρ c (Proc.devRef .tc main_v1_1) : S8192x1.Idx → EReal) = peakCol (X m c) :=
  (W2_arr m ρ c 2).trans ((Region1.peaks (V1 m ρ) c).trans (congrArg peakCol (W1_X m ρ c)))

theorem W2_signs (c : Dev nD) : (W2 m ρ c (Proc.devRef .tc main_v0_0) : S2048x2048.Idx → EReal) = signArr (Wt m c) :=
  (W2_of_ne m ρ c main_v0_0 (by decide)).trans (W1_signs m ρ c)

theorem W2_scales (c : Dev nD) : (W2 m ρ c (Proc.devRef .tc main_v0_1) : S2048x1.Idx → EReal) = scaleCol (Wt m c) :=
  (W2_of_ne m ρ c main_v0_1 (by decide)).trans (W1_scales m ρ c)

theorem W2_Bv (c : Dev nD) : (W2 m ρ c (Proc.devRef .tc main_arg2) : S2048.Idx → EReal) = Bv m c :=
  (W2_of_ne m ρ c main_arg2 (by decide)).trans (W1_Bv m ρ c)

/-! ## After the two reshapes -/

/-- A buffer neither reshape writes is as the second region left it. -/
theorem W3_of_not_written (c : Dev nD) (b : Ref sig .tc) (h2 : main_v2 ≠ b) (h3 : main_v3 ≠ b) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne (Ne.symm h2), StableHlo.devRef_ne_of_ne (Ne.symm h3)⟩))

theorem W3_quants (c : Dev nD) : (W3 m ρ c (Proc.devRef .tc main_v1_0) : S8192x2048.Idx → EReal) = quantArr (X m c) :=
  (W3_of_not_written m ρ c main_v1_0 (by decide) (by decide)).trans (W2_quants m ρ c)

theorem W3_peaks (c : Dev nD) : (W3 m ρ c (Proc.devRef .tc main_v1_1) : S8192x1.Idx → EReal) = peakCol (X m c) :=
  (W3_of_not_written m ρ c main_v1_1 (by decide) (by decide)).trans (W2_peaks m ρ c)

theorem W3_signs (c : Dev nD) : (W3 m ρ c (Proc.devRef .tc main_v0_0) : S2048x2048.Idx → EReal) = signArr (Wt m c) :=
  (W3_of_not_written m ρ c main_v0_0 (by decide) (by decide)).trans (W2_signs m ρ c)

/-- The scale column reshaped to a row vector. -/
theorem W3_scaleRow (c : Dev nD) : (W3 m ρ c (Proc.devRef .tc main_v2) : S1x2048.Idx → EReal)
    = shapeCast S1x2048 (scaleCol (Wt m c) : S2048x1.Idx → EReal) shapeCasts_S2048x1_S1x2048 := by
  rw [← W2_scales m ρ c]
  show StableHlo.after hostOps2 (W2 m ρ c) (Proc.devRef .tc main_v2) = _
  after_results
  rfl

/-- The bias vector reshaped to a row vector. -/
theorem W3_biasRow (c : Dev nD) : (W3 m ρ c (Proc.devRef .tc main_v3) : S1x2048.Idx → EReal)
    = shapeCast S1x2048 (Bv m c) shapeCasts_S2048_S1x2048 := by
  rw [← W2_Bv m ρ c]
  show StableHlo.after hostOps2 (W2 m ρ c) (Proc.devRef .tc main_v3) = _
  after_results
  rfl

/-! ## The result -/

/-- The reshaped scale column at column `o` is the scale of weight row `o`. -/
theorem scaleRow_apply (A : S2048x1.Idx → EReal) (o : Fin 2048) :
    shapeCast S1x2048 A shapeCasts_S2048x1_S1x2048 (ix2 0 o) = A (ix2 o 0) :=
  shapeCast_apply A _ (ix2 0 o) (ix2 o 0) (by
    rw [Shape.rowMajor_val_two, Shape.rowMajor_val_two]; simp)

/-- The reshaped bias vector at column `o` is bias entry `o`. -/
theorem biasRow_apply (A : S2048.Idx → EReal) (o : Fin 2048) :
    shapeCast S1x2048 A shapeCasts_S2048_S1x2048 (ix2 0 o) = A (ix1 o) :=
  shapeCast_apply A _ (ix2 0 o) (ix1 o) (by
    rw [Shape.rowMajor_val_two, Shape.rowMajor_val_one]; simp)

/-- The result array after the last region, entry by entry, is the kernel's form of the output. -/
theorem result (c : Dev nD) :
    (W4 m ρ c (Proc.devRef .tc main_v4) : S8192x2048.Idx → EReal) = kerOut (X m c) (Wt m c) (Bv m c) := by
  refine (W4_arr m ρ c 5).trans ((Region2.product (V3 m ρ) c).trans ?_)
  rw [show (V3 m ρ c main_v1_0 : S8192x2048.Idx → EReal) = _ from W3_quants m ρ c,
    show (V3 m ρ c main_v0_0 : S2048x2048.Idx → EReal) = _ from W3_signs m ρ c,
    show (V3 m ρ c main_v2 : S1x2048.Idx → EReal) = _ from W3_scaleRow m ρ c,
    show (V3 m ρ c main_v1_1 : S8192x1.Idx → EReal) = _ from W3_peaks m ρ c,
    show (V3 m ρ c main_v3 : S1x2048.Idx → EReal) = _ from W3_biasRow m ρ c]
  funext j
  obtain ⟨r, o, rfl⟩ : ∃ (r : Fin 8192) (o : Fin 2048), j = ix2 r o := ⟨j 0, j 1, eq_ix2 j⟩
  unfold gemm kerOut outK
  rw [scaleRow_apply, biasRow_apply]
  rfl

end Cert.KernelIdeal.KValue

end
-- ==== Proof.Bridge.lean ====
/-
  The kernel's form and the reference's form of one output entry agree when the activation row and the weight row hold
  real numbers.

  The argument: a row of reals has a real mean, so its centred entries are real; its variance is a nonnegative real
  and, with the small positive constant added, a positive real `v`, over which dividing by `√v` and multiplying by
  `(√v)⁻¹` are the same; the peak of the normalised row is a positive real, so the scaled entries are real; for a real
  `v` and any extended real `s`, `v + (s - v) = s`, which removes the reference's spelling of the sign and of the
  clip; and dividing by the real seven is multiplying by 1/7 at every extended real.
-/
import proofs.«109959_j77799037599823_1_alg».proof.Proof.Spec

noncomputable section

open scoped BigOperators

namespace Cert.Spec

open Idealize.ShloMosaic

namespace Bridge

/-! ## What the constants denote -/

/-- The pattern `0x45000000` denotes the real 2048. -/
theorem c2048_eq : c2048 = ((2048 : ℝ) : EReal) := by
  unfold c2048
  simp [Ideal.ofBits, Ideal.ieee, -EReal.coe_mul]; norm_num

/-- The pattern `0x40E00000` denotes the real 7. -/
theorem c7_eq : c7 = ((7 : ℝ) : EReal) := by
  unfold c7
  simp [Ideal.ofBits, Ideal.ieee, -EReal.coe_mul]; norm_num

/-- The small constant is a positive real: `0x3727C5AC` denotes `10995116 · 2⁻⁴⁰`. -/
theorem cEps_pos : ∃ e : ℝ, 0 < e ∧ cEps = (e : EReal) := by
  unfold cEps
  refine ⟨10995116 * (2:ℝ) ^ (-40 : ℤ), by positivity, ?_⟩
  simp [Ideal.ofBits, Ideal.ieee, -EReal.coe_mul]

/-- The pattern `0xFF800000` denotes minus infinity. -/
theorem cNegInf_eq : cNegInf = ⊥ := by
  unfold cNegInf
  simp [Ideal.ofBits, Ideal.ieee]

/-! ## Extended reals that are real numbers -/

/-- An extended real that is (the image of) a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.max {a b : EReal} (ha : IsReal a) (hb : IsReal b) : IsReal (max a b) := by
  rcases max_choice a b with h | h <;> rw [h] <;> assumption

/-- A finite sum of reals, taken in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ k, IsReal (f k)) :
    IsReal (∑ k ∈ s, f k) := by
  choose g hg using hf
  exact ⟨∑ k ∈ s, g k, by rw [← coe_sum]; exact Finset.sum_congr rfl (fun k _ => hg k)⟩

/-- Dividing by the real 2048 keeps a real a real. -/
theorem IsReal.div2048 {a : EReal} (ha : IsReal a) : IsReal (Ideal.div a c2048) := by
  rw [c2048_eq, Ideal.div_coe (by norm_num)]
  exact ha.mul (IsReal.coe _)

/-- For a real `v` and ANY extended real `s`: `v + (s - v) = s`. -/
theorem add_sub_cancel_real {v : EReal} (hv : IsReal v) (s : EReal) : v + (s - v) = s := by
  obtain ⟨r, rfl⟩ := hv
  induction s using EReal.rec with
  | bot => simp
  | top => simp
  | coe t => norm_cast; ring

/-! ## The rows built from a row of reals -/

theorem mean_real {f : Row} (hf : ∀ k, IsReal (f k)) : IsReal (mean f) :=
  (IsReal.sum _ hf).div2048

theorem centred_real {f : Row} (hf : ∀ k, IsReal (f k)) (k : Fin 2048) : IsReal (centred f k) :=
  (hf k).sub (mean_real hf)

theorem absRow_real {f : Row} (hf : ∀ k, IsReal (f k)) (k : Fin 2048) : IsReal (absRow f k) :=
  (hf k).max (hf k).neg

theorem meanAbs_real {f : Row} (hf : ∀ k, IsReal (f k)) : IsReal (meanAbs f) :=
  (IsReal.sum _ (absRow_real hf)).div2048

/-- The variance of a row of reals is a nonnegative real: a sum of squares over 2048. -/
theorem variance_nonneg {f : Row} (hf : ∀ k, IsReal (f k)) :
    ∃ v : ℝ, 0 ≤ v ∧ variance f = (v : EReal) := by
  choose c hc using centred_real hf
  refine ⟨(∑ k, c k * c k) * (1 / 2048),
    mul_nonneg (Finset.sum_nonneg (fun k _ => mul_self_nonneg (c k))) (by norm_num), ?_⟩
  have hs : ∑ k, centred f k * centred f k = ((∑ k, c k * c k : ℝ) : EReal) := by
    rw [← coe_sum]
    exact Finset.sum_congr rfl (fun k _ => by rw [hc k, EReal.coe_mul])
  unfold variance
  rw [hs, c2048_eq, Ideal.div_coe (by norm_num), EReal.coe_mul]

/-- The variance plus the small constant is a positive real. -/
theorem varEps_pos {f : Row} (hf : ∀ k, IsReal (f k)) :
    ∃ v : ℝ, 0 < v ∧ variance f + cEps = (v : EReal) := by
  obtain ⟨v, hv, e1⟩ := variance_nonneg hf
  obtain ⟨e, he, e2⟩ := cEps_pos
  exact ⟨v + e, by linarith, by rw [e1, e2, EReal.coe_add]⟩

/-- Over a positive real `v`, dividing by `√v` is multiplying by `(√v)⁻¹`: the two normalised rows agree. -/
theorem normR_eq_normK {f : Row} (hf : ∀ k, IsReal (f k)) : normR f = normK f := by
  obtain ⟨v, hv, e⟩ := varEps_pos hf
  funext k
  unfold normR normK
  rw [e, Ideal.sqrt_coe, Ideal.rsqrt_coe, if_neg (not_lt.mpr hv.le), if_neg (not_lt.mpr hv.le),
    if_neg hv.ne', Ideal.div_coe (Real.sqrt_ne_zero'.mpr hv), one_div]

theorem normK_real {f : Row} (hf : ∀ k, IsReal (f k)) (k : Fin 2048) : IsReal (normK f k) := by
  obtain ⟨v, hv, e⟩ := varEps_pos hf
  unfold normK
  rw [e, Ideal.rsqrt_coe, if_neg (not_lt.mpr hv.le), if_neg hv.ne']
  exact (centred_real hf k).mul (IsReal.coe _)

/-- The peak of a row of reals is a positive real: the fold of `max` from minus infinity over reals stays below
    plus infinity, and the final `max` with the small constant lifts it above zero. -/
theorem peak_pos {g : Row} (hg : ∀ k, IsReal (g k)) : ∃ p : ℝ, 0 < p ∧ peak g = (p : EReal) := by
  obtain ⟨e, he, e2⟩ := cEps_pos
  have hlt : peak g < ⊤ := by
    unfold peak
    refine max_lt ((Finset.fold_max_lt _).mpr ⟨by rw [cNegInf_eq]; exact bot_lt_top, fun k _ => ?_⟩)
      (by rw [e2]; exact EReal.coe_lt_top e)
    obtain ⟨r, hr⟩ := absRow_real hg k
    rw [hr]; exact EReal.coe_lt_top r
  have hge : (e : EReal) ≤ peak g := by
    unfold peak; rw [← e2]; exact le_max_right _ _
  have hpos : (0 : EReal) < peak g := lt_of_lt_of_le (EReal.coe_pos.mpr he) hge
  have hbot : peak g ≠ ⊥ := ne_of_gt (lt_of_le_of_lt bot_le hpos)
  refine ⟨(peak g).toReal, ?_, (EReal.coe_toReal hlt.ne hbot).symm⟩
  rw [← EReal.coe_pos, EReal.coe_toReal hlt.ne hbot]; exact hpos

/-- Seven over the peak of a row of reals is a real. -/
theorem div7peak_real {g : Row} (hg : ∀ k, IsReal (g k)) : IsReal (Ideal.div c7 (peak g)) := by
  obtain ⟨p, hp, e⟩ := peak_pos hg
  rw [e, c7_eq, Ideal.div_coe hp.ne']
  exact (IsReal.coe _).mul (IsReal.coe _)

theorem scaled_real {g : Row} (hg : ∀ k, IsReal (g k)) (k : Fin 2048) : IsReal (scaled g k) :=
  (hg k).mul (div7peak_real hg)

/-! ## The three places where the forms differ -/

/-- The sign pattern: `v + (sign v - v) = sign v` at the real `v = centred f k`. -/
theorem signR_eq_signK {f : Row} (hf : ∀ k, IsReal (f k)) : signR f = signK f := by
  funext k
  unfold signR signK
  exact add_sub_cancel_real (centred_real hf k) _

/-- The quantised row: the normalised rows agree, and `v + (clip v - v) = clip v` at the real scaled entry. -/
theorem quantR_eq_quantK {f : Row} (hf : ∀ k, IsReal (f k)) : quantR f = quantK f := by
  funext k
  unfold quantR quantK
  rw [normR_eq_normK hf]
  exact add_sub_cancel_real (scaled_real (normK_real hf) k) _

/-- Dividing by seven is multiplying by the rational 1/7, at every extended real. -/
theorem div_c7 (y : EReal) : Ideal.div y c7 = y * inv7 := by
  rw [inv7, c7_eq, Ideal.div_coe (by norm_num)]

end Bridge

/-- For rows of reals the two forms of an output entry are equal (the bias entry may be any extended real). -/
theorem outK_eq_outR (x w : Row) (b : EReal) (hx : ∀ k, ∃ r : ℝ, x k = (r : EReal)) (hw : ∀ k, ∃ r : ℝ, w k = (r : EReal)) :
    outK x w b = outR x w b := by
  unfold outK outR
  rw [Bridge.signR_eq_signK hw, Bridge.quantR_eq_quantK hx, Bridge.normR_eq_normK hx, Bridge.div_c7]

end Cert.Spec

end
-- ==== Proof.Finite.lean ====
/-
  What the precondition says: when the finiteness predicate of the three argument arrays is all ones, every entry of
  every array is a real number.

  The predicate is the conjunction, over the three arrays, of "every entry x has |x| < +∞", each universal statement
  written as a fold by `and` over all axes starting from 1. A conjunction of one-bit words is 1 exactly when both are;
  a fold by `and` that is 1 met only 1s; and an extended real x with max x (-x) < ⊤ is neither ⊤ nor ⊥, hence a real.
-/
import proofs.«109959_j77799037599823_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

variable [Cert.Pre_finite_inputs.Facts]

/-- The pattern 0x7F800000 (sign 0, exponent all ones, significand 0) denotes +∞. -/
private theorem inf_eq_top : Ideal.ofBits .f32 0x7F800000#32 = (⊤ : EReal) := by
  simp [Ideal.ofBits, Ideal.ieee]

/-- An extended real whose absolute value `max x (-x)` lies strictly below +∞ is a real number: at x = ⊤ the maximum
    is ⊤, at x = ⊥ it is -⊥ = ⊤, and ⊤ < ⊤ is false. -/
private theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- A shape of rank 0 has exactly one index. -/
private instance : Subsingleton Cert.Pre_finite_inputs.S_.Idx := ⟨fun a b => funext fun d => d.elim0⟩

/-- Under the precondition every entry of each argument array is a real number. -/
theorem real_of_pre (a0 : FVec Ideal Cert.Pre_finite_inputs.S8192x2048 .f32) (a1 : FVec Ideal Cert.Pre_finite_inputs.S2048x2048 .f32)
    (a2 : FVec Ideal Cert.Pre_finite_inputs.S2048 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  -- The predicate's one value, at the single index of the rank-0 result.
  have h0 := congrFun h ValueIdx.ix0
  unfold Cert.Pre_finite_inputs.fn at h0
  dsimp only at h0
  -- (p0 ∧ p1) ∧ p2 = 1 gives p0 = 1, p1 = 1, p2 = 1.
  obtain ⟨h01, h2⟩ := IntOp.andi_eq_one.1 (show IntOp.andi _ _ = 1#1 from h0)
  obtain ⟨h0', h1⟩ := IntOp.andi_eq_one.1 (show IntOp.andi _ _ = 1#1 from h01)
  -- Each p is a fold by `and` over every index of its array, so each compared entry is 1: |x| < +∞ there.
  refine ⟨fun i => real_of_abs_lt _ ?_, fun i => real_of_abs_lt _ ?_, fun i => real_of_abs_lt _ ?_⟩
  · exact Host.reduce_andi_all _ _ _ _ _ h0' i
  · exact Host.reduce_andi_all _ _ _ _ _ h1 i
  · exact Host.reduce_andi_all _ _ _ _ _ h2 i

end Cert.Finite

end
-- ==== Proof.lean ====
/-
  A linear layer with sign-binarised weights and four-bit activations, against its plain reference, over the extended
  reals.

  Both programs take an activation array x [8192, 2048], a weight array [2048, 2048] and a bias [2048]. Each weight row
  gives a sign pattern (the signs of its entries minus the row's mean) and a scale (the mean of its absolute values);
  each activation row is normalised (minus its mean, over the square root of its variance plus a small constant),
  its peak is its largest absolute value (at least that constant), and it is quantised: times seven over the peak,
  clipped. Output entry (r, o) is the dot product of quantised row r with sign pattern o, times scale(o) · peak(r) / 7,
  plus bias(o).

  The kernel computes this in three regions (signs and scales; quantised rows and peaks; the product), the reference in
  one chain of host operations. They differ in four spellings: the kernel multiplies by a reciprocal square root where
  the reference divides by the square root; the reference writes the sign and the clip as v + (f v − v); and the kernel
  multiplies by the rational 1/7 (a named constant) where the reference divides by 7. On finite inputs every
  intermediate that these identities need is a real number (the variance plus the constant is positive, the peak is
  positive and finite), so the two results are equal entry by entry.

  Frames: the two kernel programs' are the generated ones; the reference's is its generated run with the result dropped.
  The idealisation's two rewrites (the sign bit read as a comparison; the constant 1/7) are the rules' own statements.
-/
import proofs.«109959_j77799037599823_1_alg».proof.Defs
import proofs.«109959_j77799037599823_1_alg».proof.Proof.Gen.Kernel
import proofs.«109959_j77799037599823_1_alg».proof.Proof.Gen.Kernel.Frame
import proofs.«109959_j77799037599823_1_alg».proof.Proof.Gen.KernelIdeal
import proofs.«109959_j77799037599823_1_alg».proof.Proof.Gen.KernelIdeal.Frame
import proofs.«109959_j77799037599823_1_alg».proof.Proof.Gen.ReferenceIdeal
import proofs.«109959_j77799037599823_1_alg».proof.Proof.Gen.ReferenceIdeal.Run
import proofs.«109959_j77799037599823_1_alg».proof.Proof.Gen.ReferenceIdeal.Read
import proofs.«109959_j77799037599823_1_alg».proof.Proof.Gen.Pre_finite_inputs
import proofs.«109959_j77799037599823_1_alg».proof.Proof.Spec
import proofs.«109959_j77799037599823_1_alg».proof.Proof.RefFrame
import proofs.«109959_j77799037599823_1_alg».proof.Proof.RefValue
import proofs.«109959_j77799037599823_1_alg».proof.Proof.KernelRun
import proofs.«109959_j77799037599823_1_alg».proof.Proof.KernelValue
import proofs.«109959_j77799037599823_1_alg».proof.Proof.Bridge
import proofs.«109959_j77799037599823_1_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The two rewrites of the idealisation: the sign-bit window as a comparison with zero, and the folded reciprocal
    as the rational 1/7. -/
theorem preserves : Cert.preserves_Kernel_KernelIdeal :=
  ⟨IdealRules.sign_bit.statement Cert.KernelIdeal.S256x2048 .f32,
   IdealRules.named_const.statement Cert.KernelIdeal.κ "inv_7" .f32 0x3E124925#32 ((1 / 7 : ℝ) : EReal) rfl⟩

/-- Both programs end with the kernel's form of the output of the launch arrays: the kernel by its three regions, the
    reference because its own form agrees with the kernel's on rows of reals, which the precondition provides. -/
theorem algebraic : Cert.algebraic_KernelIdeal_ReferenceIdeal := by
  intro m ρ m' ρ' hpre hagree
  refine ⟨fun c => Cert.Spec.kerOut (Cert.KernelIdeal.KValue.X m c) (Cert.KernelIdeal.KValue.Wt m c) (Cert.KernelIdeal.KValue.Bv m c), ?_, ?_⟩
  · exact (θ_run Cert.KernelIdeal.defs _ _).mono
      (fun r h c => ⟨(h c).1.trans (Cert.KernelIdeal.KValue.result m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hw, _⟩ := Cert.Finite.real_of_pre _ _ _ (hpre c)
    rw [Cert.ReferenceIdeal.Read.val_main_v53_eq, Cert.ReferenceIdeal.RefValue.value, (hagree c).1, (hagree c).2.1,
      (hagree c).2.2]
    funext j
    exact (Cert.Spec.outK_eq_outR _ _ _ (fun k => hx _) (fun k => hw _)).symm

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, algebraic⟩

end Cert.Proof

end
